-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1024x768 : Shape := ⟨3, ![32, 1024, 768]⟩
abbrev S_ : Shape := ⟨0, ![]⟩

class Facts : Prop where
  bcast_S_S32x1024x768 : S_.BroadcastsInDim S32x1024x768 (![] : Fin 0 → Fin S32x1024x768.rank)
  reducesTo_S32x1024x768_S_d0_1_2 : S32x1024x768.ReducesTo [0, 1, 2] S_
  h_S_ : 0 < S_.numel

variable [Facts]

def fn {F : FTy → Type} [FloatOps F] (main_arg0 : FVec F S32x1024x768 .f32) : IVec S_ 1 :=
  let main_v0 : FVec F S32x1024x768 .f32 := Host.absf main_arg0
  let main_cst : FVec F S_ .f32 := constant S_ .f32 0x7F800000#32
  let main_v1 : FVec F S32x1024x768 .f32 := broadcastInDim S32x1024x768 ![] bcast_S_S32x1024x768 main_cst
  let main_v2 : IVec S32x1024x768 1 := cmpf .olt main_v0 main_v1
  let main_c : IVec S_ 1 := constantI S_ 1 1#1
  let main_v3 : IVec S_ 1 := (fun x v => Host.reduce IntOp.andi x v reducesTo_S32x1024x768_S_d0_1_2 h_S_) main_v2 main_c
  main_v3
-- ==== Kernel.lean ====
abbrev S32x1024x768 : Shape := ⟨3, ![32, 1024, 768]⟩
abbrev S32x1024x1024 : Shape := ⟨3, ![32, 1024, 1024]⟩
abbrev S1x1024x768 : Shape := ⟨3, ![1, 1024, 768]⟩
abbrev S1x1024x1024 : Shape := ⟨3, ![1, 1024, 1024]⟩
abbrev S1024x768 : Shape := ⟨2, ![1024, 768]⟩
abbrev S1024 : Shape := ⟨1, ![1024]⟩
abbrev S1024x1 : Shape := ⟨2, ![1024, 1]⟩
abbrev S1024x1024 : Shape := ⟨2, ![1024, 1024]⟩

abbrev nBuf : Space → Nat
  | .hbm => 2
  | .vmem => 4
  | .smem => 0
  | _ => 0

abbrev bufTy : (tb : Table) → Fin (tcTables nBuf tb) → BufTy
  | .hbm, ⟨0, _⟩ => ⟨S32x1024x768, .f32⟩
  | .hbm, ⟨1, _⟩ => ⟨S32x1024x1024, .f32⟩
  | .local _ .vmem, ⟨0, _⟩ => ⟨S1x1024x768, .f32⟩
  | .local _ .vmem, ⟨1, _⟩ => ⟨S1x1024x768, .f32⟩
  | .local _ .vmem, ⟨2, _⟩ => ⟨S1x1024x1024, .f32⟩
  | .local _ .vmem, ⟨3, _⟩ => ⟨S1x1024x1024, .f32⟩
  | _, _ => ⟨S32x1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S1x1024x768_S1x1024x768_0_0_0 : ∀ a, (![0, 0, 0] : Fin 3 → Nat) a + S1x1024x768.size a ≤ S1x1024x768.size a
  h_S1x1024x768 : 0 < S1x1024x768.numel
  shapeCasts_S1x1024x768_S1024x768 : S1x1024x768.ShapeCasts S1024x768
  reduces_S1024x768_S1024 : S1024x768.Reduces [1] S1024
  shapeCasts_S1024_S1024x1 : S1024.ShapeCasts S1024x1
  broadcasts_S1024x1_S1024x768 : S1024x1.Broadcasts S1024x768
  bitsLt_bf16_f32 : FTy.bits .bf16 < FTy.bits .f32
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  shapeCasts_S1024x1024_S1x1024x1024 : S1024x1024.ShapeCasts S1x1024x1024
  dot_S1024x768_S1024x768_S1024x1024_1_1_0_0_n_n_wf : DotDims.WF S1024x768 S1024x768 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x768.size a ≤ S32x1024x768.size a
  hwx0_0 : ∀ i : grid0.Coords, EltTy.bits .f32 = 32 ∨ (Rect.block (s := S32x1024x768) S1x1024x768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x1024.size a ≤ S32x1024x1024.size a
  hwx0_1 : ∀ i : grid0.Coords, EltTy.bits .f32 = 32 ∨ (Rect.block (s := S32x1024x1024) S1x1024x1024.size (cc0_transform_1 i) (hinb0_1 i)).WholeWords (EltTy.packing .f32)

variable [Facts₀]

def dot_S1024x768_S1024x768_S1024x1024_1_1_0_0_n_n : DotDims S1024x768 S1024x768 S1024x1024 where
  lhsContracting := [1]
  rhsContracting := [1]
  lhsNonContracting := [0]
  rhsNonContracting := [0]
  lhsBatch := []
  rhsBatch := []
  wf := dot_S1024x768_S1024x768_S1024x1024_1_1_0_0_n_n_wf

abbrev win0_0 : Pipeline.Window sig grid0 :=
  Pipeline.Window.ofSpec (Memref.whole main_arg0) S1x1024x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1024x1024.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S32x1024x768 : Shape := ⟨3, ![32, 1024, 768]⟩
abbrev S_ : Shape := ⟨0, ![]⟩
abbrev S32x1024 : Shape := ⟨2, ![32, 1024]⟩
abbrev S32x1024x1 : Shape := ⟨3, ![32, 1024, 1]⟩
abbrev S32x1024x1024 : Shape := ⟨3, ![32, 1024, 1024]⟩

abbrev nBuf : Space → Nat
  | .hbm => 12
  | .vmem => 0
  | .smem => 0
  | _ => 0

abbrev bufTy : (tb : Table) → Fin (tcTables nBuf tb) → BufTy
  | .hbm, ⟨0, _⟩ => ⟨S32x1024x768, .f32⟩
  | .hbm, ⟨1, _⟩ => ⟨S32x1024x768, .f32⟩
  | .hbm, ⟨2, _⟩ => ⟨S_, .f32⟩
  | .hbm, ⟨3, _⟩ => ⟨S32x1024, .f32⟩
  | .hbm, ⟨4, _⟩ => ⟨S32x1024x1, .f32⟩
  | .hbm, ⟨5, _⟩ => ⟨S32x1024x1, .f32⟩
  | .hbm, ⟨6, _⟩ => ⟨S32x1024x768, .f32⟩
  | .hbm, ⟨7, _⟩ => ⟨S32x1024x768, .f32⟩
  | .hbm, ⟨8, _⟩ => ⟨S32x1024x1024, .f32⟩
  | .hbm, ⟨9, _⟩ => ⟨S_, .f32⟩
  | .hbm, ⟨10, _⟩ => ⟨S32x1024x1024, .f32⟩
  | .hbm, ⟨11, _⟩ => ⟨S32x1024x1024, .f32⟩
  | _, _ => ⟨S32x1024x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_v0 : Ref sig .tc := ⟨.hbm, 1, rfl⟩
abbrev main_call0_cst : Ref sig .tc := ⟨.hbm, 2, rfl⟩
abbrev main_call0_v1 : Ref sig .tc := ⟨.hbm, 3, rfl⟩
abbrev main_call0_v2 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩

abbrev nD : Nat := 1
abbrev τ : Topo := Topo.v7x

variable {F : FTy → Type} [FloatOps F]

class Facts₀ : Prop where
  reducesTo_S32x1024x768_S32x1024_d2 : S32x1024x768.ReducesTo [2] S32x1024
  h_S_ : 0 < S_.numel
  bcast_S32x1024_S32x1024x1_0_1 : S32x1024.BroadcastsInDim S32x1024x1 (![0, 1] : Fin 2 → Fin S32x1024x1.rank)
  bcast_S32x1024x1_S32x1024x768_0_1_2 : S32x1024x1.BroadcastsInDim S32x1024x768 (![0, 1, 2] : Fin 3 → Fin S32x1024x768.rank)
  bcast_S_S32x1024x1024 : S_.BroadcastsInDim S32x1024x1024 (![] : Fin 0 → Fin S32x1024x1024.rank)
  dot_S32x1024x768_S32x1024x768_S32x1024x1024_2_2_1_1_0_0_wf : DotDims.WF S32x1024x768 S32x1024x768 S32x1024x1024 [2] [2] [1] [1] [0] [0]

variable [Facts₀]

def dot_S32x1024x768_S32x1024x768_S32x1024x1024_2_2_1_1_0_0 : DotDims S32x1024x768 S32x1024x768 S32x1024x1024 where
  lhsContracting := [2]
  rhsContracting := [2]
  lhsNonContracting := [1]
  rhsNonContracting := [1]
  lhsBatch := [0]
  rhsBatch := [0]
  wf := dot_S32x1024x768_S32x1024x768_S32x1024x1024_2_2_1_1_0_0_wf

class Facts : Prop extends Facts₀ where

variable [Facts]
-- ==== Proof.KernelBody.lean ====
/-
  What the kernel body writes for one batch, read at an index.

  The body loads one batch's [1, 1024, 768] block, drops the unit axis to get a [1024, 768] matrix `X`, sums the
  squares of each row, takes the root as a [1024, 1] column, spreads that column over the 768 features and divides:
  `Y[t, c] = X[t, c] / sqrt (∑_k X[t, k]²)`. The change of format that follows is the identity on the extended
  reals. It then contracts the feature axis of `Y` against itself into a zero accumulator — entry `(t, s)` of the
  product is `∑_c Y[t, c] · Y[s, c]`, the inner product of rows `t` and `s` — subtracts that from `1`, and puts
  the unit axis back. So entry `(u, t, s)` of what it stores is `1 - ∑_c Y[t, c] · Y[s, c]`.
-/
import proofs.«102773_j21689584844856_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.BodyValue

open Cert.KernelIdeal Cert.KernelIdeal.Gen
open Idealize.ShloMosaic Idealize.ShloMosaic.ValueIdx

/-! ## Layout steps of the body, each read at an index given by coordinates -/

/-- A vector of 1024 entries recast as a [1024, 1] column reads, at `(t, z)`, the vector at `t`. -/
theorem column_apply (v : FVec Ideal S1024 .f32) (h : S1024.ShapeCasts S1024x1) (t : Fin 1024) (z : Fin 1) :
    shapeCast S1024x1 v h (ix2 t z) = v (ix1 t) :=
  shapeCast_apply v h _ _ (by
    have hz : z.val = 0 := by omega
    rw [Shape.rowMajor_val_one, Shape.rowMajor_val_two]
    show t.val = t.val * 1 + z.val
    rw [hz, Nat.mul_one, Nat.add_zero])

/-- A [1024, 1] column spread over 768 features reads, at `(t, c)`, the column at row `t`. -/
theorem spread_apply (v : FVec Ideal S1024x1 .f32) (h : S1024x1.Broadcasts S1024x768) (t : Fin 1024) (c : Fin 768) :
    broadcastTo S1024x768 v h (ix2 t c) = v (ix2 t (0 : Fin 1)) := by
  refine broadcastTo_apply v h (ix2 t c) (ix2 t (0 : Fin 1)) fun ax => ?_
  match ax with
  | ⟨0, _⟩ =>
    show t.val = if (1024 : Nat) = 1 then 0 else t.val
    rw [if_neg (by decide)]
  | ⟨1, _⟩ =>
    show 0 = if (1 : Nat) = 1 then 0 else c.val
    rw [if_pos rfl]

/-- The sum over the feature axis of a [1024, 768] matrix, read at row `t`: the sum of that row's entries. -/
theorem rowSum_apply (v : FVec Ideal S1024x768 .f32) (h : S1024x768.Reduces [1] S1024) (hφ : FKind.Formats .f32)
    (hacc : (0x00000000#32 : BitVec 32) = 0x00000000#32) (t : Fin 1024) :
    multiReduction (F := Ideal) .add [1] S1024 v 0x00000000#32 h hφ hacc (ix1 t) = ∑ c : Fin 768, v (ix2 t c) := by
  refine (Ideal.multiReduction_add_single v 0x00000000#32 h hφ hacc (ix1 t)).trans ?_
  refine Finset.sum_congr rfl fun c _ => congrArg v ?_
  exact funext fun a => Fin.ext (by match a with | ⟨0, _⟩ => rfl | ⟨1, _⟩ => rfl)

/-! ## The contraction of the feature axis of a matrix against itself -/

theorem lhs_row (i : S1024x1024.Idx) (q : dot_S1024x768_S1024x768_S1024x1024_1_1_0_0_n_n.contr.Idx) :
    (dot_S1024x768_S1024x768_S1024x1024_1_1_0_0_n_n.lhsIdx i q 0).val = (i 0).val := by
  unfold DotDims.lhsIdx
  rw [dif_neg (show ¬(0 : Fin S1024x768.rank) ∈ dot_S1024x768_S1024x768_S1024x1024_1_1_0_0_n_n.lhsBatch by decide), dif_pos (show (0 : Fin S1024x768.rank) ∈ dot_S1024x768_S1024x768_S1024x1024_1_1_0_0_n_n.lhsNonContracting by decide)]
  rfl
theorem lhs_feature (i : S1024x1024.Idx) (q : dot_S1024x768_S1024x768_S1024x1024_1_1_0_0_n_n.contr.Idx) :
    (dot_S1024x768_S1024x768_S1024x1024_1_1_0_0_n_n.lhsIdx i q 1).val = (q ⟨0, by decide⟩).val :=
  dot_S1024x768_S1024x768_S1024x1024_1_1_0_0_n_n.lhsIdx_val_of_single rfl i q
theorem rhs_row (i : S1024x1024.Idx) (q : dot_S1024x768_S1024x768_S1024x1024_1_1_0_0_n_n.contr.Idx) :
    (dot_S1024x768_S1024x768_S1024x1024_1_1_0_0_n_n.rhsIdx i q 0).val = (i 1).val := by
  unfold DotDims.rhsIdx
  rw [dif_neg (show ¬(0 : Fin S1024x768.rank) ∈ dot_S1024x768_S1024x768_S1024x1024_1_1_0_0_n_n.rhsBatch by decide), dif_pos (show (0 : Fin S1024x768.rank) ∈ dot_S1024x768_S1024x768_S1024x1024_1_1_0_0_n_n.rhsNonContracting by decide)]
  rfl
theorem rhs_feature (i : S1024x1024.Idx) (q : dot_S1024x768_S1024x768_S1024x1024_1_1_0_0_n_n.contr.Idx) :
    (dot_S1024x768_S1024x768_S1024x1024_1_1_0_0_n_n.rhsIdx i q 1).val = (q ⟨0, by decide⟩).val :=
  dot_S1024x768_S1024x768_S1024x1024_1_1_0_0_n_n.rhsIdx_val_of_single rfl i q

/-- The product of a [1024, 768] matrix with itself over the feature axis, into a zero accumulator, read at
    `(t, s)`: the inner product of rows `t` and `s`. -/
theorem gram_apply (y : FVec Ideal S1024x768 .bf16) (t s : Fin 1024) :
    matmul dot_S1024x768_S1024x768_S1024x1024_1_1_0_0_n_n none y y (constant (F := Ideal) S1024x1024 .f32 0x00000000#32) (ix2 t s)
      = ∑ c : Fin 768, y (ix2 t c) * y (ix2 s c) := by
  simp only [matmul]
  rw [Ideal.matmul_constant_zero_apply, ← Equiv.sum_comp (contrEquiv1 dot_S1024x768_S1024x768_S1024x1024_1_1_0_0_n_n 768 rfl rfl).symm]
  refine Finset.sum_congr rfl fun k _ => ?_
  have hk := contrEquiv1_symm_val dot_S1024x768_S1024x768_S1024x1024_1_1_0_0_n_n 768 rfl rfl k
  have el : dot_S1024x768_S1024x768_S1024x1024_1_1_0_0_n_n.lhsIdx (ix2 t s) ((contrEquiv1 dot_S1024x768_S1024x768_S1024x1024_1_1_0_0_n_n 768 rfl rfl).symm k) = ix2 t k := funext fun a => Fin.ext (by
    match a with
    | ⟨0, _⟩ => exact lhs_row _ _
    | ⟨1, _⟩ => exact (lhs_feature _ _).trans hk)
  have er : dot_S1024x768_S1024x768_S1024x1024_1_1_0_0_n_n.rhsIdx (ix2 t s) ((contrEquiv1 dot_S1024x768_S1024x768_S1024x1024_1_1_0_0_n_n 768 rfl rfl).symm k) = ix2 s k := funext fun a => Fin.ext (by
    match a with
    | ⟨0, _⟩ => exact rhs_row _ _
    | ⟨1, _⟩ => exact (rhs_feature _ _).trans hk)
  rw [el, er]

/-! ## The body's steps, named -/

/-- The loaded block as a [1024, 768] matrix. -/
def rows (x0 : Vec Ideal S1x1024x768 .f32) : FVec Ideal S1024x768 .f32 :=
  shapeCast S1024x768 x0 shapeCasts_S1x1024x768_S1024x768

/-- Every row divided by its Euclidean length. -/
def normalised (x0 : Vec Ideal S1x1024x768 .f32) : FVec Ideal S1024x768 .f32 :=
  divf (rows x0) (broadcastTo S1024x768 (sqrt (shapeCast S1024x1
    (multiReduction (F := Ideal) .add [1] S1024 (mulf (rows x0) (rows x0)) 0x00000000#32 reduces_S1024x768_S1024 (.inl rfl) rfl)
    shapeCasts_S1024_S1024x1)) broadcasts_S1024x1_S1024x768)

/-- The body's stored value is: normalise, change format, contract against itself, subtract from one, add the unit axis. -/
theorem pay_eq (x0 : Vec Ideal S1x1024x768 .f32) :
    k0_pay1 (F := Ideal) x0 = shapeCast S1x1024x1024
      (subf (broadcast S1024x1024 (Scalar.ofBits (F := Ideal) .f32 0x3F800000#32))
        (matmul dot_S1024x768_S1024x768_S1024x1024_1_1_0_0_n_n none (truncf .bf16 (normalised x0) bitsLt_bf16_f32) (truncf .bf16 (normalised x0) bitsLt_bf16_f32)
          (constant (F := Ideal) S1024x1024 .f32 0x00000000#32)))
      shapeCasts_S1024x1024_S1x1024x1024 := rfl

theorem rows_apply (x0 : Vec Ideal S1x1024x768 .f32) (t : Fin 1024) (c : Fin 768) :
    rows x0 (ix2 t c) = x0 (ix3 (0 : Fin 1) t c) :=
  shapeCast_1ab_ab_apply x0 shapeCasts_S1x1024x768_S1024x768 t c

/-- Feature `c` of row `t` of the block, over the root of that row's sum of squares. -/
def blockUnit (x0 : Vec Ideal S1x1024x768 .f32) (t : Fin 1024) (c : Fin 768) : EReal :=
  Ideal.div (x0 (ix3 (0 : Fin 1) t c)) (Ideal.sqrt (∑ k : Fin 768, x0 (ix3 (0 : Fin 1) t k) * x0 (ix3 (0 : Fin 1) t k)))

theorem normalised_apply (x0 : Vec Ideal S1x1024x768 .f32) (t : Fin 1024) (c : Fin 768) :
    normalised x0 (ix2 t c) = blockUnit x0 t c := by
  unfold normalised blockUnit
  rw [divf_apply, rows_apply, spread_apply]
  show Ideal.div _ (Ideal.sqrt (shapeCast S1024x1 _ shapeCasts_S1024_S1024x1 (ix2 t (0 : Fin 1)))) = _
  rw [column_apply, rowSum_apply]
  simp only [mulf_apply, rows_apply]

/-- Entry `(u, t, s)` of what the body stores: one minus the inner product of the normalised rows `t` and `s`. -/
theorem pay_apply (x0 : Vec Ideal S1x1024x768 .f32) (u : Fin 1) (t s : Fin 1024) :
    k0_pay1 (F := Ideal) x0 (ix3 u t s)
      = Ideal.ofBits .f32 0x3F800000#32 - ∑ c : Fin 768, blockUnit x0 t c * blockUnit x0 s c := by
  rw [pay_eq, shapeCast_ab_1ab_apply, subf_apply, broadcast_apply, gram_apply]
  simp only [truncf_apply, normalised_apply]
  rfl

end Cert.KernelIdeal.BodyValue

end
-- ==== Proof.CosineSpec.lean ====
/-
  The cosine distance between the rows of a batch of matrices, as ONE function of the input array.

  For `x` of shape [32, 1024, 768] (32 batches of 1024 rows of 768 features) the result has shape
  [32, 1024, 1024]: entry `(b, t, s)` is `1 - ⟨u_t, u_s⟩`, where `u_t` is row `t` of batch `b` divided by its
  Euclidean length `sqrt (∑_c x[b,t,c]²)` and the inner product sums over the 768 features. Everything is read
  on the extended reals: the quotient is the extended reals' division and the root their square root, so a row
  of zeros (length `0`) is a value like any other and no case is set apart.
-/
import Idealize.ShloMosaic.PureOps.Ideal
import Idealize.ShloMosaic.Lib.ValueIdx

noncomputable section

open scoped BigOperators

namespace Cert.CosineDistance

open Idealize.ShloMosaic Idealize.ShloMosaic.ValueIdx

/-- The squared Euclidean length of row `t` of batch `b`: the sum over the features of the squares. -/
def rowSumSq (x : FVec Ideal ⟨3, ![32, 1024, 768]⟩ .f32) (b : Fin 32) (t : Fin 1024) : EReal :=
  ∑ c : Fin 768, x (ix3 b t c) * x (ix3 b t c)

/-- Feature `c` of row `t` of batch `b`, divided by that row's Euclidean length. -/
def unitEntry (x : FVec Ideal ⟨3, ![32, 1024, 768]⟩ .f32) (b : Fin 32) (t : Fin 1024) (c : Fin 768) : EReal :=
  Ideal.div (x (ix3 b t c)) (Ideal.sqrt (rowSumSq x b t))

/-- The cosine distance: one minus the inner product of the two normalised rows. The `1` is kept as the word
    both programs write for it; it is the same word on both sides and is never evaluated. -/
def cosineDist (x : FVec Ideal ⟨3, ![32, 1024, 768]⟩ .f32) : FVec Ideal ⟨3, ![32, 1024, 1024]⟩ .f32 :=
  fun i => Ideal.ofBits .f32 0x3F800000#32 - ∑ c : Fin 768, unitEntry x (i 0) (i 1) c * unitEntry x (i 0) (i 2) c

/-- The distance at an index given by its coordinates. -/
theorem cosineDist_ix3 (x : FVec Ideal ⟨3, ![32, 1024, 768]⟩ .f32) (b : Fin 32) (t s : Fin 1024) :
    cosineDist x (ix3 b t s)
      = Ideal.ofBits .f32 0x3F800000#32 - ∑ c : Fin 768, unitEntry x b t c * unitEntry x b s c := rfl

end Cert.CosineDistance

end
-- ==== Proof.KernelValue.lean ====
/-
  The kernel's output array is the cosine distance of its input array.

  The grid has one point per batch: point `t` reads block `(t, 0, 0)` of the input — the whole [1024, 768] slab of
  batch `t` — and writes block `(t, 0, 0)` of the output, the whole [1024, 1024] slab of batch `t`. What the body
  stores at `(u, p, q)` is one minus the inner product of the normalised rows `p` and `q` of the block it loaded;
  since that block's row `r` is row `r` of batch `t` of the input, this is `cosineDist x` at `(t, p, q)`. So every
  point writes back its block of ONE function of the input, the 32 blocks cover the output (index `(b, p, q)` lies
  in point `b`'s block), and the array after the run is that function.
-/
import proofs.«102773_j21689584844856_1_alg».proof.Proof.Gen.KernelIdeal.Value
import proofs.«102773_j21689584844856_1_alg».proof.Proof.KernelBody
import proofs.«102773_j21689584844856_1_alg».proof.Proof.CosineSpec

noncomputable section

open scoped BigOperators

namespace Cert.KernelIdeal.ArrayValue

open Cert.KernelIdeal Cert.KernelIdeal.Gen Cert.KernelIdeal.Value Cert.KernelIdeal.BodyValue Cert.CosineDistance
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The offsets of the body's one load and one store are all zero. -/
theorem zeros : (![0, 0, 0] : Fin 3 → Nat) = fun _ => 0 := funext fun a => by fin_cases a <;> rfl

/-- Both index maps send grid point `t` to block `(t, 0, 0)`: decided over the 32 points. -/
theorem index_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0 :=
  (by decide +kernel : ∀ t : Fin grid0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0)

/-- The batch a grid point works on. -/
def batchOf (t : Fin cfg0.N) : Fin 32 := ⟨t.val, Nat.lt_of_lt_of_eq t.isLt N_0⟩

/-- A block whose rows are the rows of batch `b` of `x` is stored as the cosine distances of batch `b`. -/
theorem block_apply (x : FVec Ideal S32x1024x768 .f32) (x0 : Vec Ideal S1x1024x768 .f32) (b : Fin 32)
    (hx : ∀ (r : Fin 1024) (k : Fin 768), x0 (ix3 (0 : Fin 1) r k) = x (ix3 b r k)) (u : Fin 1) (p q : Fin 1024) :
    k0_pay1 (F := Ideal) x0 (ix3 u p q) = cosineDist x (ix3 b p q) := by
  rw [pay_apply, cosineDist_ix3]
  unfold blockUnit unitEntry rowSumSq
  simp only [hx]

/-- WHAT POINT `t` WRITES BACK is block `t` of the cosine distance of the input array. -/
theorem flushed_eq (c : Dev nD) (t : Fin cfg0.N) :
    (dats m 0 c).flushed 1 t = ((cfg0.win 1).blk t).view.read (Elt Ideal) (cosineDist (V m c main_arg0)) := by
  rw [flushed1]
  unfold out0_1
  rw [View.canon_unit_zero zeros]
  simp only [View.ld_unit_zero (S := S1x1024x768) zeros]
  obtain ⟨e0, e1, e2, f0, f1, f2⟩ := index_facts t
  show (k0_pay1 (F := Ideal) (iblk m c 0 t) : S1x1024x1024.Idx → EReal)
    = fun y => cosineDist (V m c main_arg0) (((cfg0.win 1).blk t).view.emb y)
  funext y
  obtain ⟨u, p, q, rfl⟩ : ∃ (u : Fin 1) (p q : Fin 1024), y = ix3 u p q := ⟨y 0, y 1, y 2, eq_ix3 y⟩
  refine (block_apply (V m c main_arg0) (iblk m c 0 t) (batchOf t) (fun r k => ?_) u p q).trans
    (congrArg (cosineDist (V m c main_arg0)) ?_)
  · show V m c main_arg0 (((cfg0.win 0).blk t).view.emb (ix3 (0 : Fin 1) r k)) = V m c main_arg0 (ix3 (batchOf t) r k)
    refine congrArg (V m c main_arg0) (funext fun a => Fin.ext ?_)
    match a with
    | ⟨0, _⟩ => show win0_0.index t (0 : Fin 3) * 1 + 1 * 0 = t.val; omega
    | ⟨1, _⟩ => show win0_0.index t (1 : Fin 3) * 1024 + 1 * r.val = r.val; omega
    | ⟨2, _⟩ => show win0_0.index t (2 : Fin 3) * 768 + 1 * k.val = k.val; omega
  · refine funext fun a => Fin.ext ?_
    have hu : u.val = 0 := by omega
    match a with
    | ⟨0, _⟩ => show t.val = win0_1.index t (0 : Fin 3) * 1 + 1 * u.val; omega
    | ⟨1, _⟩ => show p.val = win0_1.index t (1 : Fin 3) * 1024 + 1 * p.val; omega
    | ⟨2, _⟩ => show q.val = win0_1.index t (2 : Fin 3) * 1024 + 1 * q.val; omega

/-- An index of the output is in point `t`'s block iff each coordinate is in the block's range on its axis. -/
theorem mem_blk (t : Fin cfg0.N) (i : S32x1024x1024.Idx) :
    i ∈ ((cfg0.win 1).blk t).view.set ↔ ∀ a : Fin 3, win0_1.index t a * S1x1024x1024.size a ≤ (i a).val
      ∧ (i a).val < win0_1.index t a * S1x1024x1024.size a + S1x1024x1024.size a := by
  show i ∈ ((View.whole main_v0).slice (win0_1.rect t)).set ↔ _
  rw [View.set_slice_whole, Rect.mem_set_unit]
  exact Iff.rfl

/-- The 32 blocks cover the output: index `(b, p, q)` lies in the block of point `b`. -/
theorem cover (i : S32x1024x1024.Idx) :
    ∃ t : Fin cfg0.N, (cfg0.win 1).flush t = true ∧ i ∈ ((cfg0.win 1).blk t).view.set := by
  have h0 : (i 0).val < 32 := (i 0).isLt
  have h1 : (i 1).val < 1024 := (i 1).isLt
  have h2 : (i 2).val < 1024 := (i 2).isLt
  have ht : (i 0).val < cfg0.N := Nat.lt_of_lt_of_eq h0 N_0.symm
  obtain ⟨e0, e1, e2, f0, f1, f2⟩ := index_facts ⟨(i 0).val, ht⟩
  refine ⟨⟨(i 0).val, ht⟩, flush0_1 _, ?_⟩
  rw [mem_blk]
  intro a
  match a with
  | ⟨0, _⟩ =>
    show win0_1.index ⟨(i 0).val, ht⟩ (0 : Fin 3) * 1 ≤ (i 0).val ∧ (i 0).val < win0_1.index ⟨(i 0).val, ht⟩ (0 : Fin 3) * 1 + 1
    have : (⟨(i 0).val, ht⟩ : Fin cfg0.N).val = (i 0).val := rfl
    omega
  | ⟨1, _⟩ =>
    show win0_1.index ⟨(i 0).val, ht⟩ (1 : Fin 3) * 1024 ≤ (i 1).val ∧ (i 1).val < win0_1.index ⟨(i 0).val, ht⟩ (1 : Fin 3) * 1024 + 1024
    omega
  | ⟨2, _⟩ =>
    show win0_1.index ⟨(i 0).val, ht⟩ (2 : Fin 3) * 1024 ≤ (i 2).val ∧ (i 2).val < win0_1.index ⟨(i 0).val, ht⟩ (2 : Fin 3) * 1024 + 1024
    omega

/-- THE ARRAY after the run is the cosine distance of the input array as the region finds it. -/
theorem final (c : Dev nD) : (dats m 0 c).arrAt 1 cfg0.N = cosineDist (V m c main_arg0) :=
  (dats m 0 c).arrAt_eq_of_cover 1 (cosineDist (V m c main_arg0)) (fun t _ => flushed_eq m c t) cover

/-- The kernel's run re-posted: the output array at the cosine distance of the argument, the argument unchanged. -/
theorem run : θ_run defs (onTc (τ := τ) (main (F := Ideal))) ⟨m, fun _ => 0, ρ⟩ fun r => ∀ c : Dev nD,
      r.2.mem ((c : Thread nD τ).loc main_v0) = cosineDist (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩) (run_blocks m ρ)

end Cert.KernelIdeal.ArrayValue

end
-- ==== Proof.RefValue.lean ====
/-
  The reference program computes the cosine distance.

  Read one operation at a time, the reference squares the input, sums each row's squares (starting from the
  word for `0`, which adds nothing), takes the root, divides every feature of a row by that root, contracts the
  feature axis of the normalised array against itself batch by batch, and subtracts the result from `1`. At an
  index `(b, t, s)` that is `1 - ∑_c (x[b,t,c] / ‖x[b,t,·]‖) · (x[b,s,c] / ‖x[b,s,·]‖)`: the specification's
  `cosineDist`. The only step that is not a renaming of indices is `0 + a = a`, which holds for every extended
  real, so nothing here asks the input to be finite.
-/
import proofs.«102773_j21689584844856_1_alg».proof.Proof.Gen.ReferenceIdeal.Read
import proofs.«102773_j21689584844856_1_alg».proof.Proof.CosineSpec

noncomputable section

open scoped BigOperators

namespace Cert.ReferenceIdeal.RefValue

open Cert.ReferenceIdeal Cert.ReferenceIdeal.Gen Cert.ReferenceIdeal.Read
open Idealize.ShloMosaic Idealize.ShloMosaic.ValueIdx Cert.CosineDistance

/-- The left operand of the contraction at output index `(b, t, s)` and feature `k` is entry `(b, t, k)` of the
    normalised array. -/
theorem lidx_eq (b : Fin 32) (t s : Fin 1024) (k : Fin 768) : lidx_main_v3 (ix3 b t s) k = ix3 b t k :=
  funext fun a => by match a with | ⟨0, _⟩ => rfl | ⟨1, _⟩ => rfl | ⟨2, _⟩ => rfl

/-- The right operand is entry `(b, s, k)`: the same batch, the OTHER row. -/
theorem ridx_eq (b : Fin 32) (t s : Fin 1024) (k : Fin 768) : ridx_main_v3 (ix3 b t s) k = ix3 b s k :=
  funext fun a => by match a with | ⟨0, _⟩ => rfl | ⟨1, _⟩ => rfl | ⟨2, _⟩ => rfl

/-- The row length that entry `(b, t, c)` is divided by is read from the row sums at `(b, t)`, whatever `c` is:
    the sum's feature `k` sits at `(b, t, k)`. -/
theorem norm_idx_eq (b : Fin 32) (t : Fin 1024) (c k : Fin 768) :
    idx_main_call0_v1 (idx_main_call0_v2 (idx_main_v1 (ix3 b t c))) k = ix3 b t k :=
  funext fun a => by match a with | ⟨0, _⟩ => rfl | ⟨1, _⟩ => rfl | ⟨2, _⟩ => rfl

/-- One entry of the reference's normalised array: the feature over the root of its row's sum of squares. -/
theorem normalised_apply (x : FVec Ideal S32x1024x768 .f32) (b : Fin 32) (t : Fin 1024) (c : Fin 768) :
    val_main_v2 (F := Ideal) x (ix3 b t c) = unitEntry x b t c := by
  rw [val_main_v2_apply, val_main_v1_apply, val_main_v0_apply, val_main_call0_v2_apply, val_main_call0_v1_apply,
    val_main_call0_cst_apply]
  simp only [val_main_call0_v0_apply, norm_idx_eq, Ideal.hostDivf_def, Ideal.hostUnary_sqrt_def, Ideal.ofBits_def,
    Ideal.ofBits_zero_f32, zero_add, Ideal.mulf_def]
  rfl

/-- The reference's result is the cosine distance of its argument. -/
theorem result_eq (x : FVec Ideal S32x1024x768 .f32) : val_main_v5 (F := Ideal) x = cosineDist x := by
  funext i
  obtain ⟨b, t, s, rfl⟩ : ∃ (b : Fin 32) (t s : Fin 1024), i = ix3 b t s := ⟨i 0, i 1, i 2, eq_ix3 i⟩
  rw [val_main_v5_apply, val_main_v4_apply, val_main_cst_apply, val_main_v3_apply, cosineDist_ix3]
  simp only [lidx_eq, ridx_eq, normalised_apply, Ideal.subf_def, Ideal.ofBits_def]

end Cert.ReferenceIdeal.RefValue

end
-- ==== Proof.lean ====
/-
  Pairwise cosine distance, batch by batch: the kernel against its reference.

  For an input `x` of shape [32, 1024, 768] both programs produce the [32, 1024, 1024] array whose entry
  `(b, t, s)` is `1 - ∑_c (x[b,t,c] / ‖x[b,t,·]‖) · (x[b,s,c] / ‖x[b,s,·]‖)`, with `‖·‖` the root of the sum of squares
  over the 768 features (`Cert.CosineDistance.cosineDist`). The kernel does it one batch per grid point: it loads
  the batch's slab, divides each row by its length, contracts the feature axis of the result against itself on the
  matrix unit into a zero accumulator, and subtracts from one; the narrowing of the normalised rows to a shorter
  float format before the product is the identity on the extended reals. The reference does the same on the whole
  array with one batched contraction. The two differ only in how indices are laid out and in the reference's row sum
  starting from an explicit zero, so they agree on EVERY extended-real input and the finiteness of the input is
  never used; a row of zeros is divided by `sqrt 0` on both sides alike.

  The three frames are the generated ones (the reference's is its run with the result dropped); nothing was
  rewritten when the kernel was idealized, so that conjunct is `True`.
-/
import proofs.«102773_j21689584844856_1_alg».proof.Defs
import proofs.«102773_j21689584844856_1_alg».proof.Proof.Gen.Kernel
import proofs.«102773_j21689584844856_1_alg».proof.Proof.Gen.Kernel.Skeleton
import proofs.«102773_j21689584844856_1_alg».proof.Proof.Gen.Kernel.Launch
import proofs.«102773_j21689584844856_1_alg».proof.Proof.Gen.Kernel.Points
import proofs.«102773_j21689584844856_1_alg».proof.Proof.Gen.Kernel.Frame
import proofs.«102773_j21689584844856_1_alg».proof.Proof.Gen.KernelIdeal
import proofs.«102773_j21689584844856_1_alg».proof.Proof.Gen.KernelIdeal.Skeleton
import proofs.«102773_j21689584844856_1_alg».proof.Proof.Gen.KernelIdeal.Launch
import proofs.«102773_j21689584844856_1_alg».proof.Proof.Gen.KernelIdeal.Points
import proofs.«102773_j21689584844856_1_alg».proof.Proof.Gen.KernelIdeal.Frame
import proofs.«102773_j21689584844856_1_alg».proof.Proof.Gen.ReferenceIdeal
import proofs.«102773_j21689584844856_1_alg».proof.Proof.Gen.Pre_finite_inputs
import proofs.«102773_j21689584844856_1_alg».proof.Proof.Gen.KernelIdeal.Value
import proofs.«102773_j21689584844856_1_alg».proof.Proof.Gen.ReferenceIdeal.Run
import proofs.«102773_j21689584844856_1_alg».proof.Proof.Gen.ReferenceIdeal.Read
import proofs.«102773_j21689584844856_1_alg».proof.Proof.KernelValue
import proofs.«102773_j21689584844856_1_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs to the end and leaves its argument as it was. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference's frame is its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the argument, the kernel's output array and the reference's result both end at the
    cosine distance of that argument. -/
theorem algebraic : Cert.algebraic_KernelIdeal_ReferenceIdeal := by
  intro m ρ m' ρ' _ hagree
  refine ⟨_, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v5_eq, Cert.ReferenceIdeal.RefValue.result_eq, hagree c]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
